-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1536 : Shape := ⟨3, ![8, 4096, 1536]⟩
abbrev S8 : Shape := ⟨1, ![8]⟩
abbrev S4x1536x3072 : Shape := ⟨3, ![4, 1536, 3072]⟩
abbrev S4x3072 : Shape := ⟨2, ![4, 3072]⟩
abbrev S_ : Shape := ⟨0, ![]⟩

class Facts : Prop where
  bcast_S_S8x4096x1536 : S_.BroadcastsInDim S8x4096x1536 (![] : Fin 0 → Fin S8x4096x1536.rank)
  reducesTo_S8x4096x1536_S_d0_1_2 : S8x4096x1536.ReducesTo [0, 1, 2] S_
  h_S_ : 0 < S_.numel
  bcast_S_S4x1536x3072 : S_.BroadcastsInDim S4x1536x3072 (![] : Fin 0 → Fin S4x1536x3072.rank)
  reducesTo_S4x1536x3072_S_d0_1_2 : S4x1536x3072.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg1 : IVec S8 32) (main_v13 : IVec S_ 1) (main_v15 : IVec S8 1) (main_c_5 : IVec S_ 32) : IVec S_ 1 :=
  let main_v16 : IVec S8 32 := broadcastInDim S8 ![] bcast_S_S8 main_c_5
  let main_v17 : IVec S8 1 := cmpi .slt main_arg1 main_v16
  let main_v18 : IVec S8 1 := andi main_v15 main_v17
  let main_c_6 : IVec S_ 1 := constantI S_ 1 1#1
  let main_v19 : IVec S_ 1 := (fun x v => Host.reduce IntOp.andi x v reducesTo_S8_S_d0 h_S_) main_v18 main_c_6
  let main_v20 : IVec S_ 1 := andi main_v13 main_v19
  main_v20

def fn {F : FTy → Type} [FloatOps F] (main_arg0 : FVec F S8x4096x1536 .f32) (main_arg1 : IVec S8 32) (main_arg2 : FVec F S4x1536x3072 .f32) (main_arg3 : FVec F S4x3072 .f32) : IVec S_ 1 :=
  let main_v0 : FVec F S8x4096x1536 .f32 := Host.absf main_arg0
  let main_cst : FVec F S_ .f32 := constant S_ .f32 0x7F800000#32
  let main_v1 : FVec F S8x4096x1536 .f32 := broadcastInDim S8x4096x1536 ![] bcast_S_S8x4096x1536 main_cst
  let main_v2 : IVec S8x4096x1536 1 := cmpf .olt main_v0 main_v1
  let main_c : IVec S_ 1 := constantI S_ 1 1#1
  let main_v3 : IVec S_ 1 := (fun x v => Host.reduce IntOp.andi x v reducesTo_S8x4096x1536_S_d0_1_2 h_S_) main_v2 main_c
  let main_v4 : FVec F S4x1536x3072 .f32 := Host.absf main_arg2
  let main_cst_0 : FVec F S_ .f32 := constant S_ .f32 0x7F800000#32
  let main_v5 : FVec F S4x1536x3072 .f32 := broadcastInDim S4x1536x3072 ![] bcast_S_S4x1536x3072 main_cst_0
  let main_v6 : IVec S4x1536x3072 1 := cmpf .olt main_v4 main_v5
  let main_c_1 : IVec S_ 1 := constantI S_ 1 1#1
  let main_v7 : IVec S_ 1 := (fun x v => Host.reduce IntOp.andi x v reducesTo_S4x1536x3072_S_d0_1_2 h_S_) main_v6 main_c_1
  let main_v8 : IVec S_ 1 := andi main_v3 main_v7
  let main_v9 : FVec F S4x3072 .f32 := Host.absf main_arg3
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  let main_c_4 : IVec S_ 32 := constantI S_ 32 0#32
  let main_v14 : IVec S8 32 := broadcastInDim S8 ![] bcast_S_S8 main_c_4
  let main_v15 : IVec S8 1 := cmpi .sge main_arg1 main_v14
  let main_c_5 : IVec S_ 32 := constantI S_ 32 4#32
  fn_part1 (F := F) main_arg1 main_v13 main_v15 main_c_5
-- ==== Kernel.lean ====
abbrev S8x4096x1536 : Shape := ⟨3, ![8, 4096, 1536]⟩
abbrev S8 : Shape := ⟨1, ![8]⟩
abbrev S4x1536x3072 : Shape := ⟨3, ![4, 1536, 3072]⟩
abbrev S4x3072 : Shape := ⟨2, ![4, 3072]⟩
abbrev S_ : Shape := ⟨0, ![]⟩
abbrev S4x1x3072 : Shape := ⟨3, ![4, 1, 3072]⟩
abbrev S8x4096x3072 : Shape := ⟨3, ![8, 4096, 3072]⟩
abbrev S1x256x1536 : Shape := ⟨3, ![1, 256, 1536]⟩
abbrev S1x1536x3072 : Shape := ⟨3, ![1, 1536, 3072]⟩
abbrev S1 : Shape := ⟨1, ![1]⟩
abbrev S1x1x3072 : Shape := ⟨3, ![1, 1, 3072]⟩
abbrev S1x256x3072 : Shape := ⟨3, ![1, 256, 3072]⟩
abbrev S1536x3072 : Shape := ⟨2, ![1536, 3072]⟩
abbrev S256x1536 : Shape := ⟨2, ![256, 1536]⟩
abbrev S256x3072 : Shape := ⟨2, ![256, 3072]⟩
abbrev S1x3072 : Shape := ⟨2, ![1, 3072]⟩

abbrev nBuf : Space → Nat
  | .hbm => 13
  | .vmem => 8
  | .smem => 1
  | _ => 0

abbrev bufTy : (tb : Table) → Fin (tcTables nBuf tb) → BufTy
  | .hbm, ⟨0, _⟩ => ⟨S8x4096x1536, .f32⟩
  | .hbm, ⟨1, _⟩ => ⟨S8, .i32⟩
  | .hbm, ⟨2, _⟩ => ⟨S4x1536x3072, .f32⟩
  | .hbm, ⟨3, _⟩ => ⟨S4x3072, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S4x1x3072, .f32⟩
  | .hbm, ⟨12, _⟩ => ⟨S8x4096x3072, .f32⟩
  | .local _ .vmem, ⟨0, _⟩ => ⟨S1x256x1536, .f32⟩
  | .local _ .vmem, ⟨1, _⟩ => ⟨S1x256x1536, .f32⟩
  | .local _ .vmem, ⟨2, _⟩ => ⟨S1x1536x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x256x3072, .f32⟩
  | .local _ .vmem, ⟨6, _⟩ => ⟨S1x256x3072, .f32⟩
  | .local _ .vmem, ⟨7, _⟩ => ⟨S1536x3072, .bf16⟩
  | .local _ .smem, ⟨0, _⟩ => ⟨S8, .i32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1536x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8 : S_.BroadcastsInDim S8 (![] : Fin 0 → Fin S8.rank)
  shapeCasts_S4x3072_S4x1x3072 : S4x3072.ShapeCasts S4x1x3072
  numel1_S1 : S1.numel = 1
  inb_S1x1536x3072_S1x1536x3072_0_0_0 : ∀ a, (![0, 0, 0] : Fin 3 → Nat) a + S1x1536x3072.size a ≤ S1x1536x3072.size a
  h_S1x1536x3072 : 0 < S1x1536x3072.numel
  shapeCasts_S1x1536x3072_S1536x3072 : S1x1536x3072.ShapeCasts S1536x3072
  bitsLt_bf16_f32 : FTy.bits .bf16 < FTy.bits .f32
  inb_S1536x3072_S1536x3072_0_0 : ∀ a, (![0, 0] : Fin 2 → Nat) a + S1536x3072.size a ≤ S1536x3072.size a
  h_S1536x3072 : 0 < S1536x3072.numel
  shapeCasts_S1536x3072_S1536x3072 : S1536x3072.ShapeCasts S1536x3072
  packedbf16_S1536x3072_S1536x3072_0_0 : (Rect.unit (s := S1536x3072) ![0, 0] S1536x3072.size inb_S1536x3072_S1536x3072_0_0).PackedRows (EltTy.packing .bf16)
  inb_S1x256x1536_S1x256x1536_0_0_0 : ∀ a, (![0, 0, 0] : Fin 3 → Nat) a + S1x256x1536.size a ≤ S1x256x1536.size a
  h_S1x256x1536 : 0 < S1x256x1536.numel
  shapeCasts_S1x256x1536_S256x1536 : S1x256x1536.ShapeCasts S256x1536
  inb_S1x1x3072_S1x1x3072_0_0_0 : ∀ a, (![0, 0, 0] : Fin 3 → Nat) a + S1x1x3072.size a ≤ S1x1x3072.size a
  h_S1x1x3072 : 0 < S1x1x3072.numel
  shapeCasts_S1x1x3072_S1x3072 : S1x1x3072.ShapeCasts S1x3072
  broadcasts_S1x3072_S256x3072 : S1x3072.Broadcasts S256x3072
  inb_S1x256x3072_S1x256x3072_0_0_0 : ∀ a, (![0, 0, 0] : Fin 3 → Nat) a + S1x256x3072.size a ≤ S1x256x3072.size a
  h_S1x256x3072 : 0 < S1x256x3072.numel
  shapeCasts_S1x256x3072_S256x3072 : S1x256x3072.ShapeCasts S256x3072
  shapeCasts_S256x3072_S1x256x3072 : S256x3072.ShapeCasts S1x256x3072
  dot_S256x1536_S1536x3072_S256x3072_1_0_0_1_n_n_wf : DotDims.WF S256x1536 S1536x3072 S256x3072 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1536.size a ≤ S8x4096x1536.size a
  hwx0_0 : ∀ i : grid0.Coords, EltTy.bits .f32 = 32 ∨ (Rect.block (s := S8x4096x1536) S1x256x1536.size (cc0_transform_0 i) (hinb0_0 i)).WholeWords (EltTy.packing .f32)
  hstage0_1 : ∀ j, (stage0_1 j).IsWhole
  nbuf0_1 : grid0.bufCount reads0_1 true = 1
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3072.size a ≤ S8x4096x3072.size a
  hwx0_3 : ∀ i : grid0.Coords, EltTy.bits .f32 = 32 ∨ (Rect.block (s := S8x4096x3072) S1x256x3072.size (cc0_transform_3 i) (hinb0_3 i)).WholeWords (EltTy.packing .f32)

variable [Facts₀]

def dot_S256x1536_S1536x3072_S256x3072_1_0_0_1_n_n : DotDims S256x1536 S1536x3072 S256x3072 where
  lhsContracting := [1]
  rhsContracting := [0]
  lhsNonContracting := [0]
  rhsNonContracting := [1]
  lhsBatch := []
  rhsBatch := []
  wf := dot_S256x1536_S1536x3072_S256x3072_1_0_0_1_n_n_wf

abbrev spec0_0 : Pipeline.WinSpec sig grid0.rank :=
  Pipeline.WinSpec.ofSpec (Memref.whole main_arg0) S1x256x1536.size reads0_0 false false 2 stage0_0 sem0_0 nbuf0_0 hstage0_0

abbrev spec0_1 : Pipeline.WinSpec sig grid0.rank :=
  Pipeline.WinSpec.ofSpec (Memref.whole main_arg2) S1x1536x3072.size reads0_1 false true 1 stage0_1 sem0_1 nbuf0_1 hstage0_1

abbrev spec0_2 : Pipeline.WinSpec sig grid0.rank :=
  Pipeline.WinSpec.ofSpec (Memref.whole main_v1) S1x1x3072.size reads0_2 false false 2 stage0_2 sem0_2 nbuf0_2 hstage0_2

abbrev spec0_3 : Pipeline.WinSpec sig grid0.rank :=
  Pipeline.WinSpec.ofSpec (Memref.whole main_v2) S1x256x3072.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1536x3072.size a ≤ S4x1536x3072.size a), EltTy.bits .f32 = 32 ∨ (Rect.block (s := S4x1536x3072) S1x1536x3072.size (cc0_transform_1 k0_off1_inb numel1_S1 pf i) h).WholeWords (EltTy.packing .f32)) ∧
  (∀ i : grid0.Coords, ∃ h : (∀ a, (cc0_transform_2 k0_off1_inb numel1_S1 pf i a + 1) * S1x1x3072.size a ≤ S4x1x3072.size a), EltTy.bits .f32 = 32 ∨ (Rect.block (s := S4x1x3072) S1x1x3072.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8x4096x1536 : Shape := ⟨3, ![8, 4096, 1536]⟩
abbrev S8 : Shape := ⟨1, ![8]⟩
abbrev S4x1536x3072 : Shape := ⟨3, ![4, 1536, 3072]⟩
abbrev S4x3072 : Shape := ⟨2, ![4, 3072]⟩
abbrev S_ : Shape := ⟨0, ![]⟩
abbrev S8x1 : Shape := ⟨2, ![8, 1]⟩
abbrev S8x1536x3072 : Shape := ⟨3, ![8, 1536, 3072]⟩
abbrev S8x3072 : Shape := ⟨2, ![8, 3072]⟩
abbrev S8x4096x3072 : Shape := ⟨3, ![8, 4096, 3072]⟩
abbrev S8x1x3072 : Shape := ⟨3, ![8, 1, 3072]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1536, .f32⟩
  | .hbm, ⟨1, _⟩ => ⟨S8, .i32⟩
  | .hbm, ⟨2, _⟩ => ⟨S4x1536x3072, .f32⟩
  | .hbm, ⟨3, _⟩ => ⟨S4x3072, .f32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x1536x3072, .f32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x3072, .f32⟩
  | .hbm, ⟨22, _⟩ => ⟨S8x4096x3072, .f32⟩
  | .hbm, ⟨23, _⟩ => ⟨S8x1x3072, .f32⟩
  | .hbm, ⟨24, _⟩ => ⟨S8x4096x3072, .f32⟩
  | .hbm, ⟨25, _⟩ => ⟨S8x4096x3072, .f32⟩
  | _, _ => ⟨S8x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S8x3072_S8x1x3072_0_2 : S8x3072.BroadcastsInDim S8x1x3072 (![0, 2] : Fin 2 → Fin S8x1x3072.rank)
  bcast_S8x1x3072_S8x4096x3072_0_1_2 : S8x1x3072.BroadcastsInDim S8x4096x3072 (![0, 1, 2] : Fin 3 → Fin S8x4096x3072.rank)
  gather_S4x1536x3072_S8x1_S8x1536x3072_12_0_n_n_0_1_115363072_wf : GatherDims.WF S4x1536x3072 S8x1 S8x1536x3072 [1, 2] [0] [] [0] [] 1 ![1, 1536, 3072]
  gather_S4x3072_S8x1_S8x3072_1_0_n_n_0_1_13072_wf : GatherDims.WF S4x3072 S8x1 S8x3072 [1] [0] [] [0] [] 1 ![1, 3072]
  dot_S8x4096x1536_S8x1536x3072_S8x4096x3072_2_1_1_2_0_0_wf : DotDims.WF S8x4096x1536 S8x1536x3072 S8x4096x3072 [2] [1] [1] [2] [0] [0]

variable [Facts₀]

def gather_S4x1536x3072_S8x1_S8x1536x3072_12_0_n_n_0_1_115363072 : GatherDims S4x1536x3072 S8x1 S8x1536x3072 where
  offsetDims := [1, 2]
  collapsedSliceDims := [0]
  operandBatchingDims := []
  startIndicesBatchingDims := []
  startIndexMap := [0]
  indexVectorDim := 1
  sliceSizes := ![1, 1536, 3072]
  wf := gather_S4x1536x3072_S8x1_S8x1536x3072_12_0_n_n_0_1_115363072_wf
def gather_S4x3072_S8x1_S8x3072_1_0_n_n_0_1_13072 : GatherDims S4x3072 S8x1 S8x3072 where
  offsetDims := [1]
  collapsedSliceDims := [0]
  operandBatchingDims := []
  startIndicesBatchingDims := []
  startIndexMap := [0]
  indexVectorDim := 1
  sliceSizes := ![1, 3072]
  wf := gather_S4x3072_S8x1_S8x3072_1_0_n_n_0_1_13072_wf
def dot_S8x4096x1536_S8x1536x3072_S8x4096x3072_2_1_1_2_0_0 : DotDims S8x4096x1536 S8x1536x3072 S8x4096x3072 where
  lhsContracting := [2]
  rhsContracting := [1]
  lhsNonContracting := [1]
  rhsNonContracting := [2]
  lhsBatch := [0]
  rhsBatch := [0]
  wf := dot_S8x4096x1536_S8x1536x3072_S8x4096x3072_2_1_1_2_0_0_wf

class Facts : Prop extends Facts₀ where

variable [Facts]
-- ==== Proof.OrgWord.lean ====
/-
  An organism index word in its label range.

  The layer has four organisms, so an organism index is a 32-bit word `w` with `0 ≤ w < 4` read signed.  For such a
  word: its unsigned value is below 4 and equals its signed value; wrapping a negative index by adding 4 (what array
  indexing does before it gathers) leaves it alone; and clipping it into `[0, 3]` (what the kernel does before it uses
  it as a block index) leaves it alone.  So both programs select organism `w` itself.
-/
import Idealize.ShloMosaic.Lib.Affine
import Idealize.ShloMosaic.Lib.ValueIdx

noncomputable section

namespace Cert.OrgWord

open Idealize.ShloMosaic Idealize.ShloMosaic.ValueIdx

/-- `0 ≤ w < 4`, signed, as the two comparisons a precondition states. -/
def InRange (w : BitVec 32) : Prop := IntOp.cmpi .sge w 0#32 = 1#1 ∧ IntOp.cmpi .slt w 4#32 = 1#1

theorem toInt_unfold (w : BitVec 32) :
    w.toInt = if 2 * w.toNat < 2 ^ 32 then (w.toNat : Int) else (w.toNat : Int) - ((2 ^ 32 : Nat) : Int) := rfl

/-- The signed value of an in-range word is its unsigned value, below 4. -/
theorem toInt_eq {w : BitVec 32} (h : InRange w) : w.toInt = (w.toNat : Int) ∧ w.toNat < 4 := by
  have h0 := IntOp.cmpi_sge.1 h.1
  have h4 := IntOp.cmpi_slt.1 h.2
  have e0 : (0#32 : BitVec 32).toInt = 0 := by decide
  have e4 : (4#32 : BitVec 32).toInt = 4 := by decide
  rw [e0] at h0
  rw [e4] at h4
  have hlt := w.isLt
  rw [toInt_unfold] at h0 h4 ⊢
  by_cases hc : 2 * w.toNat < 2 ^ 32
  · rw [if_pos hc] at h0 h4 ⊢
    exact ⟨rfl, by omega⟩
  · rw [if_neg hc] at h0 h4
    omega

theorem toNat_lt {w : BitVec 32} (h : InRange w) : w.toNat < 4 := (toInt_eq h).2

theorem toInt_toNat {w : BitVec 32} (h : InRange w) : w.toInt.toNat = w.toNat := by
  rw [(toInt_eq h).1]; exact Int.toNat_natCast _

/-- The clamp a gather applies to a start index does not move an in-range word. -/
theorem clamp_eq {w : BitVec 32} (h : InRange w) : min w.toInt.toNat (4 - 1) = w.toNat := by
  rw [toInt_toNat h]; have := toNat_lt h; omega

/-- Wrapping a negative index by adding the axis length leaves an in-range word alone. -/
theorem wrap_eq {w : BitVec 32} (h : InRange w) :
    Scalar.select (IntOp.cmpi .slt w 0#32) (IntOp.addi w 4#32) w = w := by
  have hz : IntOp.cmpi .slt w 0#32 = 0#1 := by
    refine eq_zero_of_ne_one fun e => ?_
    have h1 := IntOp.cmpi_sge.1 h.1
    have h2 := IntOp.cmpi_slt.1 e
    omega
  rw [hz, select_zero]

/-- Clipping into `[0, 3]` leaves an in-range word alone. -/
theorem clip_eq {w : BitVec 32} (h : InRange w) : IntOp.minsi 3#32 (IntOp.maxsi 0#32 w) = w := by
  have h0 := IntOp.cmpi_sge.1 h.1
  have h4 := IntOp.cmpi_slt.1 h.2
  have e0 : (0#32 : BitVec 32).toInt = 0 := by decide
  have e3 : (3#32 : BitVec 32).toInt = 3 := by decide
  have e4 : (4#32 : BitVec 32).toInt = 4 := by decide
  rw [e0] at h0
  rw [e4] at h4
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e3]
  omega

end Cert.OrgWord

end
-- ==== Proof.OrgTableBits.lean ====
/-
  The organism table the pallas_call prefetches, and what the precondition says of it.

  Before the call the program clips the eight organism indices into `[0, 3]` (a `max` with 0, then a `min` with 3)
  and places the result in scalar memory; the weight window and the bias window read their block's leading
  coordinate off that table at the batch coordinate of the grid point.  The precondition says every organism index
  is in `[0, 4)`, so the clip is the identity: the table holds the indices themselves, each below 4.  Hence every
  table-indexed block lies inside its array, which is the side condition under which the pipeline runs.
-/
import proofs.«429424_j42838003810507_3_alg».proof.Defs
import proofs.«429424_j42838003810507_3_alg».proof.Proof.Gen.Kernel.Frame.Runs
import proofs.«429424_j42838003810507_3_alg».proof.Proof.Gen.Pre_finite_inputs
import proofs.«429424_j42838003810507_3_alg».proof.Proof.OrgWord
import Idealize.ShloMosaic.Lib.ReduceAll
import Idealize.ShloMosaic.Lib.StableHlo.Run

set_option maxRecDepth 16384

noncomputable section

namespace Cert.Kernel.OrgTable

open Cert.Kernel Cert.Kernel.Gen
open Idealize.ShloMosaic Idealize.ShloMosaic.TcCoe Idealize.ShloMosaic.ValueIdx Idealize.SL.Sem
open Cert.OrgWord

variable (m : (ℓ : Loc nD τ sig) → Buf (Elt Bits) ℓ)

/-- The organism indices as launched (the program runs on one device). -/
abbrev org : IVec S8 32 := m (((0 : Dev nD) : Thread nD τ).loc main_arg1)

instance : Subsingleton Cert.Pre_finite_inputs.S_.Idx := ⟨fun a b => funext fun d => d.elim0⟩

/-- THE PRECONDITION AT ONE BATCH: organism index `b` is in `[0, 4)`. -/
theorem org_inRange (h : Cert.Pre_Kernel m) (b : Fin 8) : InRange (org m (ix1 b)) := by
  have e := congrFun (h 0) ValueIdx.ix0
  unfold Cert.Pre_finite_inputs.fn at e
  dsimp only at e
  unfold Cert.Pre_finite_inputs.fn_part1 at e
  dsimp only at e
  obtain ⟨-, e19⟩ := IntOp.andi_eq_one.1 e
  have e18 := Host.reduce_andi_all _ _ _ _ _ e19 (ix1 b)
  obtain ⟨h0, h4⟩ := IntOp.andi_eq_one.1 e18
  exact ⟨h0, h4⟩

/-- The table's contents when the region is entered: the clipped organism indices. -/
theorem tbl_eq : (tbl m 0 : IVec S8 32)
    = minsi (broadcastInDim S8 ![] bcast_S_S8 (id (constantI S_ 32 3#32)))
        (maxsi (broadcastInDim S8 ![] bcast_S_S8 (id (constantI S_ 32 0#32))) (org m)) := by
  unfold tbl
  show V m 0 main_v0 = _
  dsimp only [V]
  simp only [hostOps0, hostOps0_1, hostOps0_2, List.flatten_cons, List.flatten_nil, List.append_nil, List.cons_append,
    List.nil_append]
  after_results
  rfl

/-- Under the precondition the table holds organism index `b` at `b`. -/
theorem tbl_apply (h : Cert.Pre_Kernel m) (b : Fin 8) : (tbl m 0 : IVec S8 32) (ix1 b) = org m (ix1 b) := by
  rw [tbl_eq]
  exact clip_eq (org_inRange m h b)

/-- Every word of the table is below 4. -/
theorem tbl_lt (h : Cert.Pre_Kernel m) (x : S8.Idx) : ((tbl m 0 : IVec S8 32) x).toNat < 4 := by
  obtain ⟨b, rfl⟩ : ∃ b : Fin 8, x = ix1 b := ⟨x 0, eq_ix1 x⟩
  rw [tbl_apply m h]
  exact toNat_lt (org_inRange m h _)

/-- THE PIPELINE'S SIDE CONDITION: the weight block `(table[b], 0, 0)` lies inside `[4, 1536, 3072]` and the bias
    block `(table[b], 0, 0)` inside `[4, 1, 3072]`, at every grid point. -/
theorem ok_of_pre (h : Cert.Pre_Kernel m) : Ok m := by
  refine ⟨fun i => ?_, fun i => ?_⟩
  · obtain ⟨w, hw, e⟩ : ∃ w : BitVec 32, w.toNat < 4 ∧ cc0_transform_1 k0_off1_inb numel1_S1 (tbl m) i = ![w.toNat, 0, 0] :=
      ⟨_, tbl_lt m h _, rfl⟩
    refine ⟨fun a => ?_, Or.inl rfl⟩
    rw [e]
    fin_cases a <;> simp [S1x1536x3072, S4x1536x3072] <;> omega
  · obtain ⟨w, hw, e⟩ : ∃ w : BitVec 32, w.toNat < 4 ∧ cc0_transform_2 k0_off1_inb numel1_S1 (tbl m) i = ![w.toNat, 0, 0] :=
      ⟨_, tbl_lt m h _, rfl⟩
    refine ⟨fun a => ?_, Or.inl rfl⟩
    rw [e]
    fin_cases a <;> simp [S1x1x3072, S4x1x3072] <;> omega

end Cert.Kernel.OrgTable

end
-- ==== Proof.OrgTableIdeal.lean ====
/-
  The organism table the pallas_call prefetches, and what the precondition says of it.

  Before the call the program clips the eight organism indices into `[0, 3]` (a `max` with 0, then a `min` with 3)
  and places the result in scalar memory; the weight window and the bias window read their block's leading
  coordinate off that table at the batch coordinate of the grid point.  The precondition says every organism index
  is in `[0, 4)`, so the clip is the identity: the table holds the indices themselves, each below 4.  Hence every
  table-indexed block lies inside its array, which is the side condition under which the pipeline runs.
-/
import proofs.«429424_j42838003810507_3_alg».proof.Defs
import proofs.«429424_j42838003810507_3_alg».proof.Proof.Gen.KernelIdeal.Frame.Runs
import proofs.«429424_j42838003810507_3_alg».proof.Proof.Gen.Pre_finite_inputs
import proofs.«429424_j42838003810507_3_alg».proof.Proof.OrgWord
import Idealize.ShloMosaic.Lib.ReduceAll
import Idealize.ShloMosaic.Lib.StableHlo.Run

set_option maxRecDepth 16384

noncomputable section

namespace Cert.KernelIdeal.OrgTable

open Cert.KernelIdeal Cert.KernelIdeal.Gen
open Idealize.ShloMosaic Idealize.ShloMosaic.TcCoe Idealize.ShloMosaic.ValueIdx Idealize.SL.Sem
open Cert.OrgWord

variable (m : (ℓ : Loc nD τ sig) → Buf (Elt Ideal) ℓ)

/-- The organism indices as launched (the program runs on one device). -/
abbrev org : IVec S8 32 := m (((0 : Dev nD) : Thread nD τ).loc main_arg1)

instance : Subsingleton Cert.Pre_finite_inputs.S_.Idx := ⟨fun a b => funext fun d => d.elim0⟩

/-- THE PRECONDITION AT ONE BATCH: organism index `b` is in `[0, 4)`. -/
theorem org_inRange (h : Cert.Pre_KernelIdeal m) (b : Fin 8) : InRange (org m (ix1 b)) := by
  have e := congrFun (h 0) ValueIdx.ix0
  unfold Cert.Pre_finite_inputs.fn at e
  dsimp only at e
  unfold Cert.Pre_finite_inputs.fn_part1 at e
  dsimp only at e
  obtain ⟨-, e19⟩ := IntOp.andi_eq_one.1 e
  have e18 := Host.reduce_andi_all _ _ _ _ _ e19 (ix1 b)
  obtain ⟨h0, h4⟩ := IntOp.andi_eq_one.1 e18
  exact ⟨h0, h4⟩

/-- The table's contents when the region is entered: the clipped organism indices. -/
theorem tbl_eq : (tbl m 0 : IVec S8 32)
    = minsi (broadcastInDim S8 ![] bcast_S_S8 (id (constantI S_ 32 3#32)))
        (maxsi (broadcastInDim S8 ![] bcast_S_S8 (id (constantI S_ 32 0#32))) (org m)) := by
  unfold tbl
  show V m 0 main_v0 = _
  dsimp only [V]
  simp only [hostOps0, hostOps0_1, hostOps0_2, List.flatten_cons, List.flatten_nil, List.append_nil, List.cons_append,
    List.nil_append]
  after_results
  rfl

/-- Under the precondition the table holds organism index `b` at `b`. -/
theorem tbl_apply (h : Cert.Pre_KernelIdeal m) (b : Fin 8) : (tbl m 0 : IVec S8 32) (ix1 b) = org m (ix1 b) := by
  rw [tbl_eq]
  exact clip_eq (org_inRange m h b)

/-- Every word of the table is below 4. -/
theorem tbl_lt (h : Cert.Pre_KernelIdeal m) (x : S8.Idx) : ((tbl m 0 : IVec S8 32) x).toNat < 4 := by
  obtain ⟨b, rfl⟩ : ∃ b : Fin 8, x = ix1 b := ⟨x 0, eq_ix1 x⟩
  rw [tbl_apply m h]
  exact toNat_lt (org_inRange m h _)

/-- THE PIPELINE'S SIDE CONDITION: the weight block `(table[b], 0, 0)` lies inside `[4, 1536, 3072]` and the bias
    block `(table[b], 0, 0)` inside `[4, 1, 3072]`, at every grid point. -/
theorem ok_of_pre (h : Cert.Pre_KernelIdeal m) : Ok m := by
  refine ⟨fun i => ?_, fun i => ?_⟩
  · obtain ⟨w, hw, e⟩ : ∃ w : BitVec 32, w.toNat < 4 ∧ cc0_transform_1 k0_off1_inb numel1_S1 (tbl m) i = ![w.toNat, 0, 0] :=
      ⟨_, tbl_lt m h _, rfl⟩
    refine ⟨fun a => ?_, Or.inl rfl⟩
    rw [e]
    fin_cases a <;> simp [S1x1536x3072, S4x1536x3072] <;> omega
  · obtain ⟨w, hw, e⟩ : ∃ w : BitVec 32, w.toNat < 4 ∧ cc0_transform_2 k0_off1_inb numel1_S1 (tbl m) i = ![w.toNat, 0, 0] :=
      ⟨_, tbl_lt m h _, rfl⟩
    refine ⟨fun a => ?_, Or.inl rfl⟩
    rw [e]
    fin_cases a <;> simp [S1x1x3072, S4x1x3072] <;> omega

end Cert.KernelIdeal.OrgTable

end
-- ==== Proof.Pieces.lean ====
/-
  What one run of the kernel's body leaves behind, as values of what it loaded.

  At the first row tile of a batch the body first stores the format cast of the weight block into the scratch matrix,
  then reads the scratch back and stores `(cast x) · scratch + bias` into the output block: the scratch ends at the cast
  weight block and the output block at the product with THAT matrix.  At every other row tile the scratch is only read:
  the output block is the product with whatever the scratch held, and the scratch is unchanged.
-/
import proofs.«429424_j42838003810507_3_alg».proof.Proof.FrameIdealP
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.GenP
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First row tile of a batch: the output block is the body's product with the freshly cast weight block. -/
theorem out_A (c : Dev nD) (i : grid0.Coords) (arg3 : Memref sig .tc .vmem S1x256x1536 .f32) (harg3 : arg3.IsWhole) (arg4 : Memref sig .tc .vmem S1x1536x3072 .f32) (harg4 : arg4.IsWhole) (arg5 : Memref sig .tc .vmem S1x1x3072 .f32) (harg5 : arg5.IsWhole) (arg6 : Memref sig .tc .vmem S1x256x3072 .f32) (harg6 : arg6.IsWhole) (arg7 : Memref sig .tc .vmem S1536x3072 .bf16) (harg7 : arg7.IsWhole) (hc0 : cond0_0 i)
    (x0 : Vec F S1x256x1536 .f32) (x1 : Vec F S1x1536x3072 .f32) (x2 : Vec F S1x1x3072 .f32) (xt0 : TbBuf0 (F := F) c tbM0_0) :
    out0_A_3 c i arg3 harg3 arg4 harg4 arg5 harg5 arg6 harg6 arg7 harg7 hc0 x0 x1 x2 xt0 = k0_pay2 x0 (k0_pay1 x1) x2 := by
  unfold out0_A_3
  rw [View.read_writes_eq_canon _ _ _ (cover0_A_3 c i arg3 harg3 arg4 harg4 arg5 harg5 arg6 harg6 arg7 harg7 hc0 x0 x1 x2 xt0)]
  unfold kernelRun0_A
  dsimp only
  sl_unfold_words
  rw [View.canon_unit_zero hz3]
  simp only [View.readAt_eq_ld, harg3.read_unread, harg4.read_unread, harg5.read_unread,
    View.ld_unit_zero (S := S1x256x1536) hz3, View.ld_unit_zero (S := S1x1536x3072) hz3, View.ld_unit_zero (S := S1x1x3072) hz3,
    View.readCov_unit_zero (S := S1536x3072) _ hz2]

/-- First row tile of a batch: the scratch ends at the cast weight block. -/
theorem sout_A (c : Dev nD) (i : grid0.Coords) (arg3 : Memref sig .tc .vmem S1x256x1536 .f32) (harg3 : arg3.IsWhole) (arg4 : Memref sig .tc .vmem S1x1536x3072 .f32) (harg4 : arg4.IsWhole) (arg5 : Memref sig .tc .vmem S1x1x3072 .f32) (harg5 : arg5.IsWhole) (arg6 : Memref sig .tc .vmem S1x256x3072 .f32) (harg6 : arg6.IsWhole) (arg7 : Memref sig .tc .vmem S1536x3072 .bf16) (harg7 : arg7.IsWhole) (hc0 : cond0_0 i)
    (x0 : Vec F S1x256x1536 .f32) (x1 : Vec F S1x1536x3072 .f32) (x2 : Vec F S1x1x3072 .f32) (xt0 : TbBuf0 (F := F) c tbM0_0) :
    sout0_A_0 c i arg3 harg3 arg4 harg4 arg5 harg5 arg6 harg6 arg7 harg7 hc0 x0 x1 x2 xt0 = k0_pay1 x1 := by
  unfold sout0_A_0
  rw [View.read_writes_eq_canon _ _ _ (scover0_A_0 c i arg3 harg3 arg4 harg4 arg5 harg5 arg6 harg6 arg7 harg7 hc0 x0 x1 x2 xt0)]
  unfold kernelRun0_A
  dsimp only
  sl_unfold_words
  rw [View.canon_unit_zero hz2]
  simp only [View.readAt_eq_ld, harg4.read_unread, View.ld_unit_zero (S := S1x1536x3072) hz3]

/-- Any other row tile: the output block is the body's product with what the scratch held. -/
theorem out_B (c : Dev nD) (i : grid0.Coords) (arg3 : Memref sig .tc .vmem S1x256x1536 .f32) (harg3 : arg3.IsWhole) (arg4 : Memref sig .tc .vmem S1x1536x3072 .f32) (harg4 : arg4.IsWhole) (arg5 : Memref sig .tc .vmem S1x1x3072 .f32) (harg5 : arg5.IsWhole) (arg6 : Memref sig .tc .vmem S1x256x3072 .f32) (harg6 : arg6.IsWhole) (arg7 : Memref sig .tc .vmem S1536x3072 .bf16) (harg7 : arg7.IsWhole) (hc0 : ¬cond0_0 i)
    (x0 : Vec F S1x256x1536 .f32) (x1 : Vec F S1x1536x3072 .f32) (x2 : Vec F S1x1x3072 .f32) (xt0 : TbBuf0 (F := F) c tbM0_0) (xs0 : Vec F S1536x3072 .bf16) :
    out0_B_3 c i arg3 harg3 arg4 harg4 arg5 harg5 arg6 harg6 arg7 harg7 hc0 x0 x1 x2 xt0 xs0 = k0_pay2 x0 xs0 x2 := by
  unfold out0_B_3
  rw [View.read_writes_eq_canon _ _ _ (cover0_B_3 c i arg3 harg3 arg4 harg4 arg5 harg5 arg6 harg6 arg7 harg7 hc0 x0 x1 x2 xt0 xs0)]
  unfold kernelRun0_B
  dsimp only
  sl_unfold_words
  rw [View.canon_unit_zero hz3]
  simp only [View.readAt_eq_ld, harg3.read_unread, harg5.read_unread, harg7.read_unread,
    View.ld_unit_zero (S := S1x256x1536) hz3, View.ld_unit_zero (S := S1x1x3072) hz3, View.ld_unit_zero (S := S1536x3072) hz2]

end Cert.KernelIdeal.Pieces

end
-- ==== Proof.Payload.lean ====
/-
  What the kernel's body stores, read at an entry over the extended reals.

  The body's one store into the output block is `(cast x) · W + bias row`, where `x` is the [1, 256, 1536] block of
  inputs, `W` the [1536, 3072] scratch matrix and the bias a [1, 1, 3072] block: at row `r` and column `j`

      stored[0, r, j] = (∑ₖ x[0, r, k] · W[k, j]) + bias[0, 0, j].

  A change of float format is the identity on the extended reals, a leading unit axis added or dropped by a shape cast
  does not move an entry, a matrix product into the zero accumulator is the plain sum of products over the contracted
  coordinate, and a one-row array broadcast down the rows reads its one row.  The scratch matrix itself is stored as
  the format cast of the [1, 1536, 3072] weight block with its unit axis dropped: `W[k, j] = block[0, k, j]`.
-/
import proofs.«429424_j42838003810507_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx
open scoped BigOperators

/-- A matrix product with ONE contracted axis of extent K into the zero accumulator, at entry (p, n) of its rank-two
    result: the sum over k of the left operand at `L k` times the right at `R k`, when those are the operand indices
    at the contraction position whose one coordinate is k.  The operands may be of any float formats. -/
theorem matmul_zero_entry {sl sr : Shape} {φ₁ φ₂ : FTy} {M N K : ℕ} (D : DotDims sl sr ⟨2, ![M, N]⟩) (hr : D.contr.rank = 1)
    (hs : D.contr.size ⟨0, by omega⟩ = K) (l : FVec Ideal sl φ₁) (r : FVec Ideal sr φ₂) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-! The operand indices of the body's product: the left operand [256, 1536] contracts its axis 1, the right
    [1536, 3072] its axis 0. -/

theorem lhs_0 (i : S256x3072.Idx) (q : dot_S256x1536_S1536x3072_S256x3072_1_0_0_1_n_n.contr.Idx) :
    (dot_S256x1536_S1536x3072_S256x3072_1_0_0_1_n_n.lhsIdx i q 0).val = (i 0).val := by
  unfold DotDims.lhsIdx
  rw [dif_neg (show ¬(0 : Fin S256x1536.rank) ∈ dot_S256x1536_S1536x3072_S256x3072_1_0_0_1_n_n.lhsBatch by decide),
    dif_pos (show (0 : Fin S256x1536.rank) ∈ dot_S256x1536_S1536x3072_S256x3072_1_0_0_1_n_n.lhsNonContracting by decide)]
  rfl
theorem lhs_1 (i : S256x3072.Idx) (q : dot_S256x1536_S1536x3072_S256x3072_1_0_0_1_n_n.contr.Idx) :
    (dot_S256x1536_S1536x3072_S256x3072_1_0_0_1_n_n.lhsIdx i q 1).val = (q ⟨0, by decide⟩).val :=
  dot_S256x1536_S1536x3072_S256x3072_1_0_0_1_n_n.lhsIdx_val_of_single rfl i q
theorem rhs_0 (i : S256x3072.Idx) (q : dot_S256x1536_S1536x3072_S256x3072_1_0_0_1_n_n.contr.Idx) :
    (dot_S256x1536_S1536x3072_S256x3072_1_0_0_1_n_n.rhsIdx i q 0).val = (q ⟨0, by decide⟩).val :=
  dot_S256x1536_S1536x3072_S256x3072_1_0_0_1_n_n.rhsIdx_val_of_single rfl i q
theorem rhs_1 (i : S256x3072.Idx) (q : dot_S256x1536_S1536x3072_S256x3072_1_0_0_1_n_n.contr.Idx) :
    (dot_S256x1536_S1536x3072_S256x3072_1_0_0_1_n_n.rhsIdx i q 1).val = (i 1).val := by
  unfold DotDims.rhsIdx
  rw [dif_neg (show ¬(1 : Fin S1536x3072.rank) ∈ dot_S256x1536_S1536x3072_S256x3072_1_0_0_1_n_n.rhsBatch by decide),
    dif_pos (show (1 : Fin S1536x3072.rank) ∈ dot_S256x1536_S1536x3072_S256x3072_1_0_0_1_n_n.rhsNonContracting by decide)]
  rfl

/-- The body's product at entry (r, j): the sum over k of the left operand's (r, k) times the right's (k, j). -/
theorem product_entry (l : FVec Ideal S256x1536 .bf16) (w : FVec Ideal S1536x3072 .bf16) (r : Fin 256) (j : Fin 3072) :
    matmul dot_S256x1536_S1536x3072_S256x3072_1_0_0_1_n_n none l w (constant S256x3072 .f32 0x00000000#32) (ix2 r j)
      = ∑ k : Fin 1536, l (ix2 r k) * w (ix2 k j) :=
  matmul_zero_entry dot_S256x1536_S1536x3072_S256x3072_1_0_0_1_n_n rfl rfl l w r j (fun k => ix2 r k) (fun k => ix2 k j)
    (fun k q hk => funext fun a => Fin.ext (by
      match a with
      | ⟨0, _⟩ => exact lhs_0 _ _
      | ⟨1, _⟩ => exact (lhs_1 _ _).trans hk))
    (fun k q hk => funext fun a => Fin.ext (by
      match a with
      | ⟨0, _⟩ => exact (rhs_0 _ _).trans hk
      | ⟨1, _⟩ => exact rhs_1 _ _))

/-- THE STORED BLOCK AT AN ENTRY: `(∑ₖ x[0, r, k] · W[k, j]) + bias[0, 0, j]`. -/
theorem pay2_apply (x0 : Vec Ideal S1x256x1536 .f32) (W : Vec Ideal S1536x3072 .bf16) (x2 : Vec Ideal S1x1x3072 .f32)
    (u : Fin 1) (r : Fin 256) (j : Fin 3072) :
    k0_pay2 (F := Ideal) x0 W x2 (ix3 u r j)
      = (∑ k : Fin 1536, x0 (ix3 (0 : Fin 1) r k) * W (ix2 k j)) + x2 (ix3 (0 : Fin 1) (0 : Fin 1) j) := by
  unfold k0_pay2
  refine (shapeCast_ab_1ab_apply _ shapeCasts_S256x3072_S1x256x3072 u r j).trans ?_
  refine (addf_apply _ _ (ix2 r j)).trans ?_
  refine congrArg₂ (· + ·) ?_ ?_
  · refine (product_entry _ _ r j).trans ?_
    refine Finset.sum_congr rfl fun k _ => ?_
    have e1 : (truncf .bf16 (shapeCast S256x1536 x0 shapeCasts_S1x256x1536_S256x1536) bitsLt_bf16_f32 :
        FVec Ideal S256x1536 .bf16) (ix2 r k) = x0 (ix3 (0 : Fin 1) r k) :=
      shapeCast_1ab_ab_apply x0 shapeCasts_S1x256x1536_S256x1536 r k
    rw [e1]
  · refine (broadcastTo_1b_ab_apply _ broadcasts_S1x3072_S256x3072 r j).trans ?_
    exact shapeCast_1ab_ab_apply x2 shapeCasts_S1x1x3072_S1x3072 (0 : Fin 1) j

/-- THE SCRATCH MATRIX AT AN ENTRY: the weight block's entry (0, k, j). -/
theorem pay1_apply (x1 : Vec Ideal S1x1536x3072 .f32) (k : Fin 1536) (j : Fin 3072) :
    k0_pay1 (F := Ideal) x1 (ix2 k j) = x1 (ix3 (0 : Fin 1) k j) := by
  unfold k0_pay1
  rw [shapeCast_self]
  exact shapeCast_1ab_ab_apply x1 shapeCasts_S1x1536x3072_S1536x3072 k j

end Cert.KernelIdeal.Payload

end
-- ==== Proof.Spec.lean ====
/-
  The layer both programs compute, as one function of the four argument arrays.

  For batch `b`, row `s` and output column `j`:

      out[b, s, j] = (∑ₖ x[b, s, k] · weight[o(b), k, j]) + bias[o(b), j],     k over the 1536 input features,

  where `o(b)` is batch `b`'s organism: the unsigned value of its index word, capped at 3 so that it always names
  one of the four organisms (on the label range `[0, 4)` the cap does nothing).  Sums and products are those of the
  extended reals; the order of the sum does not matter there.
-/
import Idealize.ShloMosaic.Lib.ValueIdx
import Idealize.ShloMosaic.PureOps.Ideal

noncomputable section

namespace Cert.Spec

open Idealize.ShloMosaic Idealize.ShloMosaic.ValueIdx
open scoped BigOperators

/-- Batch `b`'s organism. -/
def orgOf (o : IVec ⟨1, ![8]⟩ 32) (b : Fin 8) : Fin 4 := ⟨min (o (ix1 b)).toNat 3, by omega⟩

/-- On the label range the organism is the index word's value. -/
theorem orgOf_val (o : IVec ⟨1, ![8]⟩ 32) (b : Fin 8) (h : (o (ix1 b)).toNat < 4) : (orgOf o b).val = (o (ix1 b)).toNat := by
  show min (o (ix1 b)).toNat 3 = _
  omega

/-- One entry of the layer's result. -/
def linAt (x : FVec Ideal ⟨3, ![8, 4096, 1536]⟩ .f32) (o : IVec ⟨1, ![8]⟩ 32) (w : FVec Ideal ⟨3, ![4, 1536, 3072]⟩ .f32)
    (bias : FVec Ideal ⟨2, ![4, 3072]⟩ .f32) (b : Fin 8) (s : Fin 4096) (j : Fin 3072) : Ideal .f32 :=
  (∑ k : Fin 1536, x (ix3 b s k) * w (ix3 (orgOf o b) k j)) + bias (ix2 (orgOf o b) j)

/-- The layer's result array. -/
def lin (x : FVec Ideal ⟨3, ![8, 4096, 1536]⟩ .f32) (o : IVec ⟨1, ![8]⟩ 32) (w : FVec Ideal ⟨3, ![4, 1536, 3072]⟩ .f32)
    (bias : FVec Ideal ⟨2, ![4, 3072]⟩ .f32) : FVec Ideal ⟨3, ![8, 4096, 3072]⟩ .f32 :=
  fun i => linAt x o w bias (i 0) (i 1) (i 2)

theorem lin_apply (x : FVec Ideal ⟨3, ![8, 4096, 1536]⟩ .f32) (o : IVec ⟨1, ![8]⟩ 32) (w : FVec Ideal ⟨3, ![4, 1536, 3072]⟩ .f32)
    (bias : FVec Ideal ⟨2, ![4, 3072]⟩ .f32) (b : Fin 8) (s : Fin 4096) (j : Fin 3072) :
    lin x o w bias (ix3 b s j) = linAt x o w bias b s j := rfl

end Cert.Spec

end
-- ==== Proof.LayerValue.lean ====
/-
  What the kernel's result array holds: the layer, entry by entry.

  The grid has 128 points; point `t` is batch `t / 16` and row tile `t % 16`.  Its input block is rows
  `256 · (t % 16) … + 255` of `x[t / 16]`; its weight block and bias block are those of the organism the prefetched
  table names for batch `t / 16` (the block index on the leading axis IS the table's word); its output block is the
  same rows of `out[t / 16]`.

  The scratch matrix is written only at a batch's first row tile (`t % 16 = 0`), with the weight block of that batch's
  organism, and only read afterwards.  By induction over the points, after point `t` it holds the organism matrix of
  batch `t / 16`: at a first tile it was just stored; at any other tile it is what the point before left, and
  `(t − 1) / 16 = t / 16` there.  So at EVERY point the stored output block is
  `(∑ₖ x[b, s, k] · weight[o(b), k, j]) + bias[o(b), j]` at its rows `s` of batch `b = t / 16`: block `t` of one
  function `G` of the arrays.  The 128 blocks tile the [8, 4096, 3072] result (row `s` of batch `b` lies in point
  `16 b + s / 256`'s block), so the result array ends at `G`, which over the launched arguments is `Spec.lin`.
-/
import proofs.«429424_j42838003810507_3_alg».proof.Defs
import proofs.«429424_j42838003810507_3_alg».proof.Proof.FrameIdealP
import proofs.«429424_j42838003810507_3_alg».proof.Proof.OrgTableIdeal
import proofs.«429424_j42838003810507_3_alg».proof.Proof.Pieces
import proofs.«429424_j42838003810507_3_alg».proof.Proof.Payload
import proofs.«429424_j42838003810507_3_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.LayerValue

open Cert.KernelIdeal Cert.KernelIdeal.Gen Cert.KernelIdeal.GenP Cert.KernelIdeal.OrgTable Cert.KernelIdeal.Pieces Cert.KernelIdeal.Payload
open Idealize.ShloMosaic Idealize.ShloMosaic.TcCoe Idealize.ShloMosaic.ValueIdx Idealize.SL.Sem
open Idealize.ShloMosaic.Pipeline (Dat)
open Cert.OrgWord Cert.Spec
open scoped BigOperators

variable (m : (ℓ : Loc nD τ sig) → Buf (Elt Ideal) ℓ) (ρ : Dev nD → PrngReg)

/-! ## The grid and the index maps -/

/-- Grid point `t` is batch `t / 16`, row tile `t % 16`: the input and output windows' block indices there. -/
theorem tf0 : ∀ t : Fin grid0.N, cc0_transform_0 (grid0.coords t) 0 = t.val / 16 ∧ cc0_transform_0 (grid0.coords t) 1 = t.val % 16
    ∧ cc0_transform_0 (grid0.coords t) 2 = 0 :=
  (by decide +kernel : ∀ t : Fin grid0.N, cc0_transform_0 (grid0.coords t) 0 = t.val / 16 ∧ cc0_transform_0 (grid0.coords t) 1 = t.val % 16
    ∧ cc0_transform_0 (grid0.coords t) 2 = 0)
theorem tf3 : ∀ t : Fin grid0.N, cc0_transform_3 (grid0.coords t) 0 = t.val / 16 ∧ cc0_transform_3 (grid0.coords t) 1 = t.val % 16
    ∧ cc0_transform_3 (grid0.coords t) 2 = 0 :=
  (by decide +kernel : ∀ t : Fin grid0.N, cc0_transform_3 (grid0.coords t) 0 = t.val / 16 ∧ cc0_transform_3 (grid0.coords t) 1 = t.val % 16
    ∧ cc0_transform_3 (grid0.coords t) 2 = 0)
theorem batch_of : ∀ t : Fin grid0.N, (grid0.coords t 0).val = t.val / 16 :=
  (by decide +kernel : ∀ t : Fin grid0.N, (grid0.coords t 0).val = t.val / 16)

/-- The one index of a one-element table read is its offset. -/
theorem unit_emb (n : Nat) (b : Fin 8) (hb : n = b.val) (inb : ∀ a, (![n] : Fin 1 → Nat) a + S1.size a ≤ S8.size a) (h1 : 0 < S1.numel) :
    (Rect.unit (s := S8) ![n] S1.size inb).emb (Shape.Idx.first h1) = ix1 b := by
  funext a
  apply Fin.ext
  match a with
  | ⟨0, _⟩ =>
    show n + 1 * (Shape.Idx.first h1 (0 : Fin 1)).val = b.val
    have h0 : (Shape.Idx.first h1 (0 : Fin 1)).val = 0 := by
      have := (Shape.Idx.first h1 (0 : Fin 1)).isLt
      have e : S1.size (0 : Fin 1) = 1 := by decide
      omega
    rw [h0, hb]; omega

/-- The weight window's block index at a grid point of batch `b`: the table's word for `b`, then zeros. -/
theorem tf1 (pf : pre0.Contents (Elt Ideal)) (i : grid0.Coords) (b : Fin 8) (hb : (i 0).val = b.val) :
    cc0_transform_1 k0_off1_inb numel1_S1 pf i = ![((pf 0 : IVec S8 32) (ix1 b)).toNat, 0, 0] := by
  have hn : (Scalar.indexCast (BitVec.ofNat 32 (i 0).val)).toNat = b.val := by
    show (BitVec.ofNat 32 (i 0).val).toNat = b.val
    rw [BitVec.toNat_ofNat, hb]
    have := b.isLt
    omega
  funext a
  match a with
  | ⟨0, _⟩ => exact congrArg (fun x => ((pf 0 : IVec S8 32) x).toNat) (unit_emb _ b hn _ _)
  | ⟨1, _⟩ => rfl
  | ⟨2, _⟩ => rfl

/-- The same for the bias window. -/
theorem tf2 (pf : pre0.Contents (Elt Ideal)) (i : grid0.Coords) (b : Fin 8) (hb : (i 0).val = b.val) :
    cc0_transform_2 k0_off1_inb numel1_S1 pf i = ![((pf 0 : IVec S8 32) (ix1 b)).toNat, 0, 0] := by
  have hn : (Scalar.indexCast (BitVec.ofNat 32 (i 0).val)).toNat = b.val := by
    show (BitVec.ofNat 32 (i 0).val).toNat = b.val
    rw [BitVec.toNat_ofNat, hb]
    have := b.isLt
    omega
  funext a
  match a with
  | ⟨0, _⟩ => exact congrArg (fun x => ((pf 0 : IVec S8 32) x).toNat) (unit_emb _ b hn _ _)
  | ⟨1, _⟩ => rfl
  | ⟨2, _⟩ => rfl

/-! ## The arrays as the region finds them, and the windows' blocks -/

abbrev xarr (c : Dev nD) : FVec Ideal S8x4096x1536 .f32 := V m c main_arg0
abbrev warr (c : Dev nD) : FVec Ideal S4x1536x3072 .f32 := V m c main_arg2
abbrev barr (c : Dev nD) : FVec Ideal S4x1x3072 .f32 := V m c main_v1
abbrev xblk (hO : Ok m) (c : Dev nD) (t : Fin (cfgM m hO).N) : Vec Ideal S1x256x1536 .f32 := iblk m hO c 0 t
abbrev wblk (hO : Ok m) (c : Dev nD) (t : Fin (cfgM m hO).N) : Vec Ideal S1x1536x3072 .f32 := iblk m hO c 1 t
abbrev bblk (hO : Ok m) (c : Dev nD) (t : Fin (cfgM m hO).N) : Vec Ideal S1x1x3072 .f32 := iblk m hO c 2 t

/-- The input block at point `t`: rows `256 · (t % 16) …` of batch `t / 16`. -/
theorem xblk_apply (hO : Ok m) (c : Dev nD) (t : Fin (cfgM m hO).N) (r : Fin 256) (k : Fin 1536)
    (b : Fin 8) (s : Fin 4096) (hb : b.val = t.val / 16) (hs : s.val = 256 * (t.val % 16) + r.val) :
    xblk m hO c t (ix3 (0 : Fin 1) r k) = xarr m c (ix3 b s k) := by
  show iblk m hO c 0 t (ix3 (0 : Fin 1) r k) = _
  unfold iblk
  refine (View.read_apply _ _).trans ?_
  simp only [cast_eq]
  show V m c main_arg0 _ = V m c main_arg0 _
  congr 1
  funext a
  apply Fin.ext
  obtain ⟨e0, e1, e2⟩ := tf0 t
  match a with
  | ⟨0, _⟩ => show cc0_transform_0 (grid0.coords t) 0 * 1 + 1 * 0 = b.val; omega
  | ⟨1, _⟩ => show cc0_transform_0 (grid0.coords t) 1 * 256 + 1 * r.val = s.val; omega
  | ⟨2, _⟩ => show cc0_transform_0 (grid0.coords t) 2 * 1536 + 1 * k.val = k.val; omega

/-- The weight block at point `t`: the matrix of the organism the table names for batch `t / 16`. -/
theorem wblk_apply (hO : Ok m) (c : Dev nD) (t : Fin (cfgM m hO).N) (k : Fin 1536) (j : Fin 3072)
    (b : Fin 8) (o : Fin 4) (hb : b.val = t.val / 16) (ho : o.val = ((tbl m 0 : IVec S8 32) (ix1 b)).toNat) :
    wblk m hO c t (ix3 (0 : Fin 1) k j) = warr m c (ix3 o k j) := by
  show iblk m hO c 1 t (ix3 (0 : Fin 1) k j) = _
  unfold iblk
  refine (View.read_apply _ _).trans ?_
  simp only [cast_eq]
  show V m c main_arg2 _ = V m c main_arg2 _
  congr 1
  funext a
  apply Fin.ext
  have e := tf1 (tbl m) (grid0.coords t) b ((batch_of t).trans hb.symm)
  match a with
  | ⟨0, _⟩ => show cc0_transform_1 k0_off1_inb numel1_S1 (tbl m) (grid0.coords t) 0 * 1 + 1 * 0 = o.val; rw [e, ho]; show ((tbl m 0 : IVec S8 32) (ix1 b)).toNat * 1 + 1 * 0 = ((tbl m 0 : IVec S8 32) (ix1 b)).toNat; omega
  | ⟨1, _⟩ => show cc0_transform_1 k0_off1_inb numel1_S1 (tbl m) (grid0.coords t) 1 * 1536 + 1 * k.val = k.val; rw [e]; show 0 * 1536 + 1 * k.val = k.val; omega
  | ⟨2, _⟩ => show cc0_transform_1 k0_off1_inb numel1_S1 (tbl m) (grid0.coords t) 2 * 3072 + 1 * j.val = j.val; rw [e]; show 0 * 3072 + 1 * j.val = j.val; omega

/-- The bias block at point `t`: the row of that organism. -/
theorem bblk_apply (hO : Ok m) (c : Dev nD) (t : Fin (cfgM m hO).N) (j : Fin 3072)
    (b : Fin 8) (o : Fin 4) (hb : b.val = t.val / 16) (ho : o.val = ((tbl m 0 : IVec S8 32) (ix1 b)).toNat) :
    bblk m hO c t (ix3 (0 : Fin 1) (0 : Fin 1) j) = barr m c (ix3 o (0 : Fin 1) j) := by
  show iblk m hO c 2 t (ix3 (0 : Fin 1) (0 : Fin 1) j) = _
  unfold iblk
  refine (View.read_apply _ _).trans ?_
  simp only [cast_eq]
  show V m c main_v1 _ = V m c main_v1 _
  congr 1
  funext a
  apply Fin.ext
  have e := tf2 (tbl m) (grid0.coords t) b ((batch_of t).trans hb.symm)
  match a with
  | ⟨0, _⟩ => show cc0_transform_2 k0_off1_inb numel1_S1 (tbl m) (grid0.coords t) 0 * 1 + 1 * 0 = o.val; rw [e, ho]; show ((tbl m 0 : IVec S8 32) (ix1 b)).toNat * 1 + 1 * 0 = ((tbl m 0 : IVec S8 32) (ix1 b)).toNat; omega
  | ⟨1, _⟩ => show cc0_transform_2 k0_off1_inb numel1_S1 (tbl m) (grid0.coords t) 1 * 1 + 1 * 0 = 0; rw [e]; rfl
  | ⟨2, _⟩ => show cc0_transform_2 k0_off1_inb numel1_S1 (tbl m) (grid0.coords t) 2 * 3072 + 1 * j.val = j.val; rw [e]; show 0 * 3072 + 1 * j.val = j.val; omega

/-! ## The carried scratch matrix -/

/-- Batch `b`'s organism. -/
abbrev og (b : Fin 8) : Fin 4 := orgOf (org m) b

/-- Under the precondition it is the table's word for `b`. -/
theorem og_val (h : Cert.Pre_KernelIdeal m) (b : Fin 8) : (og m b).val = ((tbl m 0 : IVec S8 32) (ix1 b)).toNat := by
  rw [tbl_apply m h b]
  exact orgOf_val (org m) b (toNat_lt (org_inRange m h b))

/-- Batch `b`'s organism matrix, as the scratch holds it. -/
def Wmat (c : Dev nD) (b : Fin 8) : Vec Ideal S1536x3072 .bf16 := fun y => warr m c (ix3 (og m b) (y 0) (y 1))

theorem Wmat_apply (c : Dev nD) (b : Fin 8) (k : Fin 1536) (j : Fin 3072) :
    Wmat m c b (ix2 k j) = warr m c (ix3 (og m b) k j) := rfl

/-- What the first row tile of a batch stores into the scratch is that batch's organism matrix. -/
theorem pay1_wblk (h : Cert.Pre_KernelIdeal m) (hO : Ok m) (c : Dev nD) (t : Fin (cfgM m hO).N) (b : Fin 8) (hb : b.val = t.val / 16) :
    k0_pay1 (F := Ideal) (wblk m hO c t) = Wmat m c b := by
  funext y
  obtain ⟨k, j, rfl⟩ : ∃ (k : Fin 1536) (j : Fin 3072), y = ix2 k j := ⟨y 0, y 1, eq_ix2 y⟩
  rw [pay1_apply, Wmat_apply]
  exact wblk_apply m hO c t k j b (og m b) hb (og_val m h b)

/-! What a point leaves, by its case, over the windows' blocks at that point. -/

theorem scratch_first (hO : Ok m) (c : Dev nD) (t : Fin (cfgM m hO).N) (h0 : t.val % 16 = 0) :
    (outsAt0 m hO c t.val t.isLt).2 = k0_pay1 (F := Ideal) (wblk m hO c t) := by
  rw [outsAt0_A m hO c t h0]
  dsimp only
  exact sout_A (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) ((hcond0_0 t).mpr h0) (xblk m hO c t) (wblk m hO c t) (bblk m hO c t) (tbl m 0)

theorem scratch_later (hO : Ok m) (c : Dev nD) (t : Fin (cfgM m hO).N) (h0 : ¬t.val % 16 = 0) :
    (outsAt0 m hO c t.val t.isLt).2 = (outsAt0 m hO c (t.val - 1) (Nat.lt_of_le_of_lt (Nat.sub_le _ _) t.isLt)).2 := by
  rw [outsAt0_B m hO c t h0]
  dsimp only
  rfl

theorem out_first (hO : Ok m) (c : Dev nD) (t : Fin (cfgM m hO).N) (h0 : t.val % 16 = 0) :
    (outsAt0 m hO c t.val t.isLt).1 = k0_pay2 (F := Ideal) (xblk m hO c t) (k0_pay1 (F := Ideal) (wblk m hO c t)) (bblk m hO c t) := by
  rw [outsAt0_A m hO c t h0]
  dsimp only
  exact out_A (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) ((hcond0_0 t).mpr h0) (xblk m hO c t) (wblk m hO c t) (bblk m hO c t) (tbl m 0)

theorem out_later (hO : Ok m) (c : Dev nD) (t : Fin (cfgM m hO).N) (h0 : ¬t.val % 16 = 0) :
    (outsAt0 m hO c t.val t.isLt).1 = k0_pay2 (F := Ideal) (xblk m hO c t)
      (outsAt0 m hO c (t.val - 1) (Nat.lt_of_le_of_lt (Nat.sub_le _ _) t.isLt)).2 (bblk m hO c t) := by
  rw [outsAt0_B m hO c t h0]
  dsimp only
  exact out_B (F := Ideal) c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (fun h => h0 ((hcond0_0 t).mp h)) (xblk m hO c t) (wblk m hO c t) (bblk m hO c t) (tbl m 0)
    (outsAt0 m hO c (t.val - 1) (Nat.lt_of_le_of_lt (Nat.sub_le _ _) t.isLt)).2

/-- THE INVARIANT, by induction on the grid point: after point `n` the scratch holds the organism matrix of batch
    `n / 16` — stored there at the batch's first row tile, untouched by its other fifteen. -/
theorem scratch_eq (h : Cert.Pre_KernelIdeal m) (hO : Ok m) (c : Dev nD) :
    ∀ (n : ℕ) (hn : n < (cfgM m hO).N) (b : Fin 8), b.val = n / 16 → (outsAt0 m hO c n hn).2 = Wmat m c b
  | 0, hn, b, hb =>
    (scratch_first m hO c ⟨0, hn⟩ (Nat.zero_mod 16)).trans (pay1_wblk m h hO c ⟨0, hn⟩ b hb)
  | n + 1, hn, b, hb => by
    by_cases h0 : (n + 1) % 16 = 0
    · exact (scratch_first m hO c ⟨n + 1, hn⟩ h0).trans (pay1_wblk m h hO c ⟨n + 1, hn⟩ b hb)
    · exact (scratch_later m hO c ⟨n + 1, hn⟩ h0).trans (scratch_eq h hO c n _ b (by omega))

/-- So at every point the output block is the body's product of the input block with the batch's organism matrix,
    plus the bias block. -/
theorem out_eq (h : Cert.Pre_KernelIdeal m) (hO : Ok m) (c : Dev nD) (t : Fin (cfgM m hO).N) (b : Fin 8) (hb : b.val = t.val / 16) :
    (outsAt0 m hO c t.val t.isLt).1 = k0_pay2 (F := Ideal) (xblk m hO c t) (Wmat m c b) (bblk m hO c t) := by
  by_cases h0 : t.val % 16 = 0
  · rw [out_first m hO c t h0, pay1_wblk m h hO c t b hb]
  · rw [out_later m hO c t h0, scratch_eq m h hO c (t.val - 1) _ b (by omega)]

/-! ## The result array -/

/-- What the result array ends holding, over the arrays as the region finds them. -/
def G (c : Dev nD) : FVec Ideal S8x4096x3072 .f32 := fun i =>
  (∑ k : Fin 1536, xarr m c (ix3 (i 0) (i 1) k) * warr m c (ix3 (og m (i 0)) k (i 2))) + barr m c (ix3 (og m (i 0)) (0 : Fin 1) (i 2))

theorem G_apply (c : Dev nD) (b : Fin 8) (s : Fin 4096) (j : Fin 3072) :
    G m c (ix3 b s j) = (∑ k : Fin 1536, xarr m c (ix3 b s k) * warr m c (ix3 (og m b) k j)) + barr m c (ix3 (og m b) (0 : Fin 1) j) := rfl

/-- Entry (u, r, j) of the output block at point `t` is entry (t / 16, 256 · (t % 16) + r, j) of the result array. -/
theorem oemb (hO : Ok m) (t : Fin (cfgM m hO).N) (u : Fin 1) (r : Fin 256) (j : Fin 3072) (b : Fin 8) (s : Fin 4096)
    (hb : b.val = t.val / 16) (hs : s.val = 256 * (t.val % 16) + r.val) :
    (((cfgM m hO).win 3).blk t).view.emb (ix3 u r j) = ix3 b s j := by
  funext a
  apply Fin.ext
  obtain ⟨e0, e1, e2⟩ := tf3 t
  have hu := u.isLt
  match a with
  | ⟨0, _⟩ => show cc0_transform_3 (grid0.coords t) 0 * 1 + 1 * u.val = b.val; omega
  | ⟨1, _⟩ => show cc0_transform_3 (grid0.coords t) 1 * 256 + 1 * r.val = s.val; omega
  | ⟨2, _⟩ => show cc0_transform_3 (grid0.coords t) 2 * 3072 + 1 * j.val = j.val; omega

/-- WHAT POINT `t` WRITES BACK is block `t` of `G`. -/
theorem flushed_eq (h : Cert.Pre_KernelIdeal m) (hO : Ok m) (c : Dev nD) (t : Fin (cfgM m hO).N) :
    (dats m hO 0 c).flushed 3 t = (((cfgM m hO).win 3).blk t).view.read (Elt Ideal) (G m c) := by
  have hN : (cfgM m hO).N = 128 := N_0
  have htl := t.isLt
  show ((cfgM m hO).win 3).cut (grid0.coords t) ((dats m hO 0 c).after 3 t) = _
  rw [after0_3, out_eq m h hO c t ⟨t.val / 16, by omega⟩ rfl]
  refine funext fun (y : S1x256x3072.Idx) => ?_
  obtain ⟨u, r, j, rfl⟩ : ∃ (u : Fin 1) (r : Fin 256) (j : Fin 3072), y = ix3 u r j := ⟨y 0, y 1, y 2, eq_ix3 y⟩
  refine Eq.trans ?_ (View.read_apply _ _).symm
  show k0_pay2 (F := Ideal) (xblk m hO c t) (Wmat m c ⟨t.val / 16, by omega⟩) (bblk m hO c t) (ix3 u r j)
    = G m c ((((cfgM m hO).win 3).blk t).view.emb (ix3 u r j))
  have hr := r.isLt
  rw [oemb m hO t u r j ⟨t.val / 16, by omega⟩ ⟨256 * (t.val % 16) + r.val, by omega⟩ rfl rfl, G_apply, pay2_apply]
  refine congrArg₂ (· + ·) (Finset.sum_congr rfl fun k _ => ?_) ?_
  · rw [xblk_apply m hO c t r k ⟨t.val / 16, by omega⟩ ⟨256 * (t.val % 16) + r.val, by omega⟩ rfl rfl, Wmat_apply]
  · exact bblk_apply m hO c t j ⟨t.val / 16, by omega⟩ (og m ⟨t.val / 16, by omega⟩) rfl (og_val m h _)

/-- Membership in a slice of the whole result buffer is membership in the rectangle. -/
theorem mem_whole_slice (R : Rect main_v2.ty.shape) (i : main_v2.ty.shape.Idx) :
    i ∈ ((View.whole main_v2).slice R).set ↔ i ∈ R.set := by
  rw [View.set_slice_whole]

/-- Every entry of the result array is in some point's block: row `s` of batch `b` in point `16 b + s / 256`'s. -/
theorem cover (hO : Ok m) (i : S8x4096x3072.Idx) :
    ∃ t : Fin (cfgM m hO).N, ((cfgM m hO).win 3).flush t = true ∧ i ∈ (((cfgM m hO).win 3).blk t).view.set := by
  have hN : (cfgM m hO).N = 128 := N_0
  have h0 : (i 0).val < 8 := (i 0).isLt
  have h1 : (i 1).val < 4096 := (i 1).isLt
  have h2 : (i 2).val < 3072 := (i 2).isLt
  have ht : 16 * (i 0).val + (i 1).val / 256 < (cfgM m hO).N := by omega
  refine ⟨⟨16 * (i 0).val + (i 1).val / 256, ht⟩, flush0_3 (adm m hO) _, ?_⟩
  refine (mem_whole_slice (((cfgM m hO).win 3).rect ⟨16 * (i 0).val + (i 1).val / 256, ht⟩) i).mpr ?_
  obtain ⟨e0, e1, e2⟩ := tf3 ⟨16 * (i 0).val + (i 1).val / 256, ht⟩
  dsimp only at e0 e1 e2
  refine Rect.mem_set_unit.mpr fun a => ?_
  match a with
  | ⟨0, _⟩ =>
    show cc0_transform_3 (grid0.coords ⟨16 * (i 0).val + (i 1).val / 256, ht⟩) 0 * 1 ≤ (i 0).val
      ∧ (i 0).val < cc0_transform_3 (grid0.coords ⟨16 * (i 0).val + (i 1).val / 256, ht⟩) 0 * 1 + 1
    omega
  | ⟨1, _⟩ =>
    show cc0_transform_3 (grid0.coords ⟨16 * (i 0).val + (i 1).val / 256, ht⟩) 1 * 256 ≤ (i 1).val
      ∧ (i 1).val < cc0_transform_3 (grid0.coords ⟨16 * (i 0).val + (i 1).val / 256, ht⟩) 1 * 256 + 256
    omega
  | ⟨2, _⟩ =>
    show cc0_transform_3 (grid0.coords ⟨16 * (i 0).val + (i 1).val / 256, ht⟩) 2 * 3072 ≤ (i 2).val
      ∧ (i 2).val < cc0_transform_3 (grid0.coords ⟨16 * (i 0).val + (i 1).val / 256, ht⟩) 2 * 3072 + 3072
    omega

/-- So the result array ends holding `G`. -/
theorem final (h : Cert.Pre_KernelIdeal m) (hO : Ok m) (c : Dev nD) : (dats m hO 0 c).arrAt 3 (cfgM m hO).N = G m c :=
  (dats m hO 0 c).arrAt_eq_of_cover 3 (G m c) (fun t _ => flushed_eq m h hO c t) (cover m hO)

/-! ## Over the launched arrays -/

/-- The bias array the region finds is the host's reshape of the bias argument to [4, 1, 3072]: entry (o, 0, j) is
    the argument's (o, j). -/
theorem barr_apply (c : Dev nD) (o : Fin 4) (j : Fin 3072) :
    barr m c (ix3 o (0 : Fin 1) j) = m ((c : Thread nD τ).loc main_arg3) (ix2 o j) := by
  have e : (V m c main_v1 : FVec Ideal S4x1x3072 .f32)
      = shapeCast S4x1x3072 (m ((c : Thread nD τ).loc main_arg3)) shapeCasts_S4x3072_S4x1x3072 := by
    dsimp only [V]
    simp only [hostOps0, hostOps0_1, hostOps0_2, List.flatten_cons, List.flatten_nil, List.append_nil, List.cons_append,
      List.nil_append]
    after_results
    rfl
  show (V m c main_v1 : FVec Ideal S4x1x3072 .f32) (ix3 o (0 : Fin 1) j) = _
  rw [e]
  refine shapeCast_apply _ shapeCasts_S4x3072_S4x1x3072 (ix3 o (0 : Fin 1) j) (ix2 o j) ?_
  rw [Shape.rowMajor_val_three, Shape.rowMajor_val_two]
  show o.val * 3072 + j.val = (o.val * 1 + 0) * 3072 + j.val
  omega

/-- `G` is the layer of the launched argument arrays. -/
theorem G_eq_lin (c : Dev nD) :
    G m c = lin (m ((c : Thread nD τ).loc main_arg0)) (org m) (m ((c : Thread nD τ).loc main_arg2)) (m ((c : Thread nD τ).loc main_arg3)) := by
  funext i
  obtain ⟨b, s, j, rfl⟩ : ∃ (b : Fin 8) (s : Fin 4096) (j : Fin 3072), i = ix3 b s j := ⟨i 0, i 1, i 2, eq_ix3 i⟩
  rw [G_apply, lin_apply, barr_apply]
  have ex : xarr m c = m ((c : Thread nD τ).loc main_arg0) := V_main_arg0 m c
  have ew : warr m c = m ((c : Thread nD τ).loc main_arg2) := V_main_arg2 m c
  rw [ex, ew]
  rfl

/-- THE KERNEL'S RUN, READ: under the precondition every weakly fair execution terminates with the result array at the
    layer of the argument arrays, and the arguments unchanged. -/
theorem run (h : Cert.Pre_KernelIdeal m) :
    θ_run defs (onTc (τ := τ) (main (F := Ideal))) ⟨m, fun _ => 0, ρ⟩ fun r => ∀ c : Dev nD,
      r.2.mem ((c.tc : Thread nD τ).loc main_v2)
        = lin (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hO : Ok m := ok_of_pre m h
  refine (θ_run defs _ _).mono (fun _ hq c => ?_) (run_main m ρ hO)
  refine ⟨((hq c).1 3).trans ((final m h hO c).trans ?_),
    ((hq c).1 0).trans (((dats m hO 0 c).arrAt_in 0 rfl _).trans ((A_eq m hO c 0).trans (V_main_arg0 m c))),
    ((hq c).2 main_arg1 (by decide : main_arg1 ∈ Pipeline.restRefs sig spec0)).trans (V_main_arg1 m c),
    ((hq c).1 1).trans (((dats m hO 0 c).arrAt_in 1 rfl _).trans ((A_eq m hO c 1).trans (V_main_arg2 m c))),
    ((hq c).2 main_arg3 (by decide : main_arg3 ∈ Pipeline.restRefs sig spec0)).trans (V_main_arg3 m c)⟩
  obtain rfl : c = 0 := Subsingleton.elim _ _
  exact G_eq_lin m 0

end Cert.KernelIdeal.LayerValue

end
-- ==== Proof.LibRowGather.lean ====
/-
  A row gather read at an entry.

  `x[idx]` for an integer vector `idx : [R]` and an operand `x` whose LEADING axis is gathered lowers to
  `stablehlo.gather` with the start indices reshaped to `[R, 1]` (index vector on axis 1), the leading operand axis
  collapsed and named by the start index map, and every other operand axis an offset axis taken whole.  Result row
  `r` is then operand row `idx[r, 0]`, read as a signed integer and clamped into `[0, N − 1]` (StableHLO clamps
  every start index so that the slice fits), and the remaining coordinates pass through unchanged.  Stated for an
  operand of rank three (`[N, A, B]`, result `[R, A, B]`) and of rank two (`[N, B]`, result `[R, B]`).
-/
import Idealize.ShloMosaic.Lib.ValueIdx

noncomputable section

namespace Cert.LibRowGather

open Idealize.ShloMosaic Idealize.ShloMosaic.ValueIdx

variable {α : Type}

/-- The dimension numbers of a leading-axis row gather out of `[N, A, B]` by start indices `[R, 1]`. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Result entry `(r, a, b)` of the row gather is operand entry `(clamp idx[r, 0], a, b)`. -/
theorem rowGather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext ax
  refine Fin.ext ?_
  show (rowDims3 N A B R wf).start (ix3 r a b) idx ax + (rowDims3 N A B R wf).batchCoord (ix3 r a b) ax
    + (rowDims3 N A B R wf).offCoord (ix3 r a b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 3) ∈ (rowDims3 N A B R wf).startIndexMap from List.mem_singleton.mpr rfl)]
    have hsi : (rowDims3 N A B R wf).siIdx (ix3 r a b) ⟨List.idxOf (⟨0, by decide⟩ : Fin 3) (rowDims3 N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

/-- The dimension numbers of a leading-axis row gather out of `[N, B]` by start indices `[R, 1]`. -/
abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- Result entry `(r, b)` of the row gather is operand entry `(clamp idx[r, 0], b)`. -/
theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.RefSide.lean ====
/-
  The reference computes the layer.

  The reference wraps a negative organism index by adding 4, gathers the eight organisms' weight matrices and bias
  rows with the wrapped indices (the gather clamps each start index into `[0, 3]`), multiplies every batch's rows by
  its organism's matrix (a batched product contracting the 1536 input features) and adds the bias row, broadcast down
  the 4096 rows.  On the label range `[0, 4)` neither the wrap nor the clamp moves an index, so batch `b` reads
  organism `o(b)`, and entry `(b, s, j)` of the result is `(∑ₖ x[b, s, k] · weight[o(b), k, j]) + bias[o(b), j]`.
-/
import proofs.«429424_j42838003810507_3_alg».proof.Proof.Gen.ReferenceIdeal.Run
import proofs.«429424_j42838003810507_3_alg».proof.Proof.Gen.ReferenceIdeal.Read
import proofs.«429424_j42838003810507_3_alg».proof.Proof.LibRowGather
import proofs.«429424_j42838003810507_3_alg».proof.Proof.OrgWord
import proofs.«429424_j42838003810507_3_alg».proof.Proof.Spec

noncomputable section

namespace Cert.ReferenceIdeal.RefSide

open Cert.ReferenceIdeal Cert.ReferenceIdeal.Gen Cert.ReferenceIdeal.Read
open Idealize.ShloMosaic Idealize.ShloMosaic.ValueIdx
open Cert.OrgWord Cert.Spec Cert.LibRowGather
open scoped BigOperators

variable (x0 : (⟨S8x4096x1536, .f32⟩ : BufTy).Contents (Elt Ideal)) (x1 : (⟨S8, .i32⟩ : BufTy).Contents (Elt Ideal))
  (x2 : (⟨S4x1536x3072, .f32⟩ : BufTy).Contents (Elt Ideal)) (x3 : (⟨S4x3072, .f32⟩ : BufTy).Contents (Elt Ideal))

/-- The wrapped index the weight gather starts from, at batch `b`: the index itself. -/
theorem startW (b : Fin 8) (h : InRange (x1 (ix1 b))) : val_main_v5 (F := Ideal) x1 (ix2 b (0 : Fin 1)) = x1 (ix1 b) := by
  rw [val_main_v5_apply]
  have e : idx_main_v5 (ix2 b (0 : Fin 1)) = ix1 b := funext fun a => Fin.ext (by match a with | ⟨0, _⟩ => rfl)
  rw [e, val_main_v4_apply, val_main_v1_apply, val_main_v3_apply, val_main_v0_apply, val_main_v2_apply, val_main_c_apply,
    val_main_c_0_apply]
  exact wrap_eq h

/-- The same for the bias gather (the program computes the wrap twice). -/
theorem startB (b : Fin 8) (h : InRange (x1 (ix1 b))) : val_main_v12 (F := Ideal) x1 (ix2 b (0 : Fin 1)) = x1 (ix1 b) := by
  rw [val_main_v12_apply]
  have e : idx_main_v12 (ix2 b (0 : Fin 1)) = ix1 b := funext fun a => Fin.ext (by match a with | ⟨0, _⟩ => rfl)
  rw [e, val_main_v11_apply, val_main_v8_apply, val_main_v10_apply, val_main_v7_apply, val_main_v9_apply, val_main_c_1_apply,
    val_main_c_2_apply]
  exact wrap_eq h

/-- The clamped start index is the organism. -/
theorem clamped (w : BitVec 32) (b : Fin 8) (e : w = x1 (ix1 b)) (h : InRange (x1 (ix1 b))) (hlt : min w.toInt.toNat (4 - 1) < 4) :
    (⟨min w.toInt.toNat (4 - 1), hlt⟩ : Fin 4) = orgOf x1 b := by
  subst e
  refine Fin.ext ?_
  show min (x1 (ix1 b)).toInt.toNat (4 - 1) = (orgOf x1 b).val
  rw [clamp_eq h, orgOf_val x1 b (toNat_lt h)]

/-- The gathered weights: batch `b`'s matrix is organism `o(b)`'s. -/
theorem gatheredW (b : Fin 8) (k : Fin 1536) (j : Fin 3072) (h : InRange (x1 (ix1 b))) :
    val_main_v6 (F := Ideal) x1 x2 (ix3 b k j) = x2 (ix3 (orgOf x1 b) k j) := by
  unfold val_main_v6
  show Host.gather (rowDims3 4 1536 3072 8 gather_S4x1536x3072_S8x1_S8x1536x3072_12_0_n_n_0_1_115363072_wf) x2
    (val_main_v5 (F := Ideal) x1) (ix3 b k j) = _
  rw [rowGather3_apply (by decide)]
  exact congrArg (fun o => x2 (ix3 o k j)) (clamped x1 _ b (startW x1 b h) h _)

/-- The gathered bias rows: batch `b`'s row is organism `o(b)`'s. -/
theorem gatheredB (b : Fin 8) (j : Fin 3072) (h : InRange (x1 (ix1 b))) :
    val_main_v13 (F := Ideal) x1 x3 (ix2 b j) = x3 (ix2 (orgOf x1 b) j) := by
  unfold val_main_v13
  show Host.gather (rowDims2 4 3072 8 gather_S4x3072_S8x1_S8x3072_1_0_n_n_0_1_13072_wf) x3
    (val_main_v12 (F := Ideal) x1) (ix2 b j) = _
  rw [rowGather2_apply (by decide)]
  exact congrArg (fun o => x3 (ix2 o j)) (clamped x1 _ b (startB x1 b h) h _)

/-- THE REFERENCE'S RESULT IS THE LAYER, when every organism index is in its label range. -/
theorem result_eq (h : ∀ b : Fin 8, InRange (x1 (ix1 b))) :
    val_main_v17 (F := Ideal) x0 x1 x2 x3 = lin x0 x1 x2 x3 := by
  funext i
  obtain ⟨b, s, j, rfl⟩ : ∃ (b : Fin 8) (s : Fin 4096) (j : Fin 3072), i = ix3 b s j := ⟨i 0, i 1, i 2, eq_ix3 i⟩
  rw [lin_apply, val_main_v17_apply, val_main_v14_apply, val_main_v16_apply, val_main_v15_apply]
  have el : ∀ k : Fin 1536, lidx_main_v14 (ix3 b s j) k = ix3 b s k := fun k => funext fun a => Fin.ext (by
    match a with
    | ⟨0, _⟩ => rfl
    | ⟨1, _⟩ => rfl
    | ⟨2, _⟩ => rfl)
  have er : ∀ k : Fin 1536, ridx_main_v14 (ix3 b s j) k = ix3 b k j := fun k => funext fun a => Fin.ext (by
    match a with
    | ⟨0, _⟩ => rfl
    | ⟨1, _⟩ => rfl
    | ⟨2, _⟩ => rfl)
  have eb : idx_main_v15 (idx_main_v16 (ix3 b s j)) = ix2 b j := funext fun a => Fin.ext (by
    match a with
    | ⟨0, _⟩ => rfl
    | ⟨1, _⟩ => rfl)
  simp only [el, er, eb, gatheredW x1 x2 b _ j (h b), gatheredB x1 x3 b j (h b)]
  rfl

end Cert.ReferenceIdeal.RefSide

end
-- ==== Proof.lean ====
/-
  A per-sample organism linear layer: out[b] = x[b] · weight[o(b)] + bias[o(b)], with o(b) the organism index of
  batch b among four organisms.

  THE KERNEL clips the organism indices into [0, 3], prefetches them as a table, and walks a grid of 8 batches × 16 row
  tiles: each point multiplies a [256, 1536] tile of x[b] by the organism's [1536, 3072] matrix — cast once per batch,
  at the batch's first row tile, into a scratch matrix that the other fifteen tiles reuse — and adds the organism's
  bias row.  THE REFERENCE wraps negative indices, gathers the eight matrices and bias rows, and does one batched
  product plus a broadcast bias.

  Over the extended reals a change of float format is the identity and the order of a sum does not matter, so both are
  the one function `Spec.lin` of the four arguments — PROVIDED every organism index is in its label range [0, 4): there
  the kernel's clip, the reference's wrap and the gather's clamp all leave the index alone.  (Outside it they differ:
  at index −1 the reference reads organism 3 and the kernel organism 0; the precondition states the range.)

    frames        the kernel's pipeline runs under the side condition that every table-indexed block lies inside its
                  array, which the range gives (`OrgTable.ok_of_pre`); the reference is a straight line of host
                  operations.
    preserves     the idealization rewrote nothing.
    algebraic     kernel side: the scratch holds batch t / 16's organism matrix after every point t (induction over the
                  grid), so each output block is its tile of `lin`, and the blocks cover the result
                  (`LayerValue.run`); reference side: the gathers read organism o(b) (`RefSide.result_eq`).
-/
import proofs.«429424_j42838003810507_3_alg».proof.Defs
import proofs.«429424_j42838003810507_3_alg».proof.Proof.Gen.Kernel
import proofs.«429424_j42838003810507_3_alg».proof.Proof.Gen.KernelIdeal
import proofs.«429424_j42838003810507_3_alg».proof.Proof.Gen.ReferenceIdeal
import proofs.«429424_j42838003810507_3_alg».proof.Proof.Gen.ReferenceIdeal.Run
import proofs.«429424_j42838003810507_3_alg».proof.Proof.Gen.ReferenceIdeal.Read
import proofs.«429424_j42838003810507_3_alg».proof.Proof.Gen.Pre_finite_inputs
import proofs.«429424_j42838003810507_3_alg».proof.Proof.FrameBitsP
import proofs.«429424_j42838003810507_3_alg».proof.Proof.FrameIdealP
import proofs.«429424_j42838003810507_3_alg».proof.Proof.OrgTableBits
import proofs.«429424_j42838003810507_3_alg».proof.Proof.OrgTableIdeal
import proofs.«429424_j42838003810507_3_alg».proof.Proof.LayerValue
import proofs.«429424_j42838003810507_3_alg».proof.Proof.RefSide
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ h => Cert.Kernel.GenP.frame m ρ (Cert.Kernel.OrgTable.ok_of_pre m h)

theorem frame_ki : Cert.frame_KernelIdeal := fun m ρ h => Cert.KernelIdeal.GenP.frame m ρ (Cert.KernelIdeal.OrgTable.ok_of_pre m h)

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the layer of the (agreeing) argument arrays. -/
theorem algebraic : Cert.algebraic_KernelIdeal_ReferenceIdeal := by
  intro m ρ m' ρ' hpre hagree
  refine ⟨_, Cert.KernelIdeal.LayerValue.run m ρ hpre, ?_⟩
  refine (θ_run Cert.ReferenceIdeal.defs _ _).mono (fun _ hq c => ⟨(hq c).1.trans ?_, (hq c).2⟩)
    (Cert.ReferenceIdeal.Value.run (F := Ideal) m' ρ')
  obtain rfl : c = 0 := Subsingleton.elim _ _
  rw [Cert.ReferenceIdeal.Read.val_main_v17_eq, (hagree 0).1, (hagree 0).2.1, (hagree 0).2.2.1, (hagree 0).2.2.2]
  exact Cert.ReferenceIdeal.RefSide.result_eq _ _ _ _ fun b => Cert.KernelIdeal.OrgTable.org_inRange m hpre b

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
